-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x512x2 : Shape := ⟨3, ![4096, 512, 2]⟩
abbrev S2x256x8 : Shape := ⟨3, ![2, 256, 8]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bitsLt_bf16_f32 : FTy.bits .bf16 < FTy.bits .f32
  bcast_S_S2x256x8 : S_.BroadcastsInDim S2x256x8 (![] : Fin 0 → Fin S2x256x8.rank)
  reducesTo_S2x256x8_S_d0_1_2 : S2x256x8.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4x2048x4096 .f32) (main_arg1 : IVec S4096x512x2 32) (main_arg2 : FVec F S2x256x8 .bf16) (main_arg3 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S2x256x8 .f32 := (extf .f32 · bitsLt_bf16_f32) main_arg2
  let main_v5 : FVec F S2x256x8 .f32 := Host.absf main_v4
  let main_cst_0 : FVec F S_ .f32 := constant S_ .f32 0x7F800000#32
  let main_v6 : FVec F S2x256x8 .f32 := broadcastInDim S2x256x8 ![] bcast_S_S2x256x8 main_cst_0
  let main_v7 : IVec S2x256x8 1 := cmpf .olt main_v5 main_v6
  let main_c_1 : IVec S_ 1 := constantI S_ 1 1#1
  let main_v8 : IVec S_ 1 := (fun x v => Host.reduce IntOp.andi x v reducesTo_S2x256x8_S_d0_1_2 h_S_) main_v7 main_c_1
  let main_v9 : IVec S_ 1 := andi main_v3 main_v8
  let main_v10 : FVec F S4096 .f32 := Host.absf main_arg3
  let main_cst_2 : FVec F S_ .f32 := constant S_ .f32 0x7F800000#32
  let main_v11 : FVec F S4096 .f32 := broadcastInDim S4096 ![] bcast_S_S4096 main_cst_2
  let main_v12 : IVec S4096 1 := cmpf .olt main_v10 main_v11
  let main_c_3 : IVec S_ 1 := constantI S_ 1 1#1
  let main_v13 : IVec S_ 1 := (fun x v => Host.reduce IntOp.andi x v reducesTo_S4096_S_d0 h_S_) main_v12 main_c_3
  let main_v14 : IVec S_ 1 := andi main_v9 main_v13
  main_v14
-- ==== Kernel.lean ====
abbrev S4x2048x4096 : Shape := ⟨3, ![4, 2048, 4096]⟩
abbrev S4096x512x2 : Shape := ⟨3, ![4096, 512, 2]⟩
abbrev S2x256x8 : Shape := ⟨3, ![2, 256, 8]⟩
abbrev S4096 : Shape := ⟨1, ![4096]⟩
abbrev S8192x4096 : Shape := ⟨2, ![8192, 4096]⟩
abbrev S1x256x8 : Shape := ⟨3, ![1, 256, 8]⟩
abbrev S256x8 : Shape := ⟨2, ![256, 8]⟩
abbrev S4096x512x1 : Shape := ⟨3, ![4096, 512, 1]⟩
abbrev S4096x512 : Shape := ⟨2, ![4096, 512]⟩
abbrev S_ : Shape := ⟨0, ![]⟩
abbrev S4096x512x8 : Shape := ⟨3, ![4096, 512, 8]⟩
abbrev S4096x4096 : Shape := ⟨2, ![4096, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 42
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x8, .bf16⟩
  | .hbm, ⟨3, _⟩ => ⟨S4096, .f32⟩
  | .hbm, ⟨4, _⟩ => ⟨S8192x4096, .f32⟩
  | .hbm, ⟨5, _⟩ => ⟨S2x256x8, .f32⟩
  | .hbm, ⟨6, _⟩ => ⟨S1x256x8, .f32⟩
  | .hbm, ⟨7, _⟩ => ⟨S256x8, .f32⟩
  | .hbm, ⟨8, _⟩ => ⟨S4096x512x1, .i32⟩
  | .hbm, ⟨9, _⟩ => ⟨S4096x512, .i32⟩
  | .hbm, ⟨10, _⟩ => ⟨S_, .i32⟩
  | .hbm, ⟨11, _⟩ => ⟨S4096x512, .i32⟩
  | .hbm, ⟨12, _⟩ => ⟨S4096x512, .i1⟩
  | .hbm, ⟨13, _⟩ => ⟨S_, .i32⟩
  | .hbm, ⟨14, _⟩ => ⟨S4096x512, .i32⟩
  | .hbm, ⟨15, _⟩ => ⟨S4096x512, .i32⟩
  | .hbm, ⟨16, _⟩ => ⟨S4096x512, .i32⟩
  | .hbm, ⟨17, _⟩ => ⟨S4096x512x1, .i32⟩
  | .hbm, ⟨18, _⟩ => ⟨S4096x512x8, .f32⟩
  | .hbm, ⟨19, _⟩ => ⟨S_, .f32⟩
  | .hbm, ⟨20, _⟩ => ⟨S4096x512x8, .f32⟩
  | .hbm, ⟨21, _⟩ => ⟨S4096x512x8, .f32⟩
  | .hbm, ⟨22, _⟩ => ⟨S1x256x8, .f32⟩
  | .hbm, ⟨23, _⟩ => ⟨S256x8, .f32⟩
  | .hbm, ⟨24, _⟩ => ⟨S4096x512x1, .i32⟩
  | .hbm, ⟨25, _⟩ => ⟨S4096x512, .i32⟩
  | .hbm, ⟨26, _⟩ => ⟨S_, .i32⟩
  | .hbm, ⟨27, _⟩ => ⟨S4096x512, .i32⟩
  | .hbm, ⟨28, _⟩ => ⟨S4096x512, .i1⟩
  | .hbm, ⟨29, _⟩ => ⟨S_, .i32⟩
  | .hbm, ⟨30, _⟩ => ⟨S4096x512, .i32⟩
  | .hbm, ⟨31, _⟩ => ⟨S4096x512, .i32⟩
  | .hbm, ⟨32, _⟩ => ⟨S4096x512, .i32⟩
  | .hbm, ⟨33, _⟩ => ⟨S4096x512x1, .i32⟩
  | .hbm, ⟨34, _⟩ => ⟨S4096x512x8, .f32⟩
  | .hbm, ⟨35, _⟩ => ⟨S4096x512x8, .f32⟩
  | .hbm, ⟨36, _⟩ => ⟨S4096x4096, .f32⟩
  | .hbm, ⟨37, _⟩ => ⟨S4096x4096, .f32⟩
  | .hbm, ⟨38, _⟩ => ⟨S4096x4096, .bf16⟩
  | .hbm, ⟨39, _⟩ => ⟨S1x4096, .f32⟩
  | .hbm, ⟨40, _⟩ => ⟨S8192x4096, .f32⟩
  | .hbm, ⟨41, _⟩ => ⟨S4x2048x4096, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c_1 : Ref sig .tc := ⟨.hbm, 26, rfl⟩
abbrev main_v19 : Ref sig .tc := ⟨.hbm, 27, rfl⟩
abbrev main_v20 : Ref sig .tc := ⟨.hbm, 28, rfl⟩
abbrev main_c_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_10 : BitVec 32 := 0#32
  let v20 : BitVec 1 := Scalar.cmpi .ne v19 c0_i32_10
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4x2048x4096_S8192x4096 : S4x2048x4096.ShapeCasts S8192x4096
  bitsLt_bf16_f32 : FTy.bits .bf16 < FTy.bits .f32
  slices_S2x256x8_S1x256x8_0_0_0 : S2x256x8.Slices ![0, 0, 0] S1x256x8
  shapeCasts_S1x256x8_S256x8 : S1x256x8.ShapeCasts S256x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x8 : S_.BroadcastsInDim S4096x512x8 (![] : Fin 0 → Fin S4096x512x8.rank)
  slices_S2x256x8_S1x256x8_1_0_0 : S2x256x8.Slices ![1, 0, 0] S1x256x8
  slices_S4096x512x2_S4096x512x1_0_0_1 : S4096x512x2.Slices ![0, 0, 1] S4096x512x1
  shapeCasts_S4096x512x8_S4096x4096 : S4096x512x8.ShapeCasts S4096x4096
  transposes_S4096x4096_S4096x4096_1_0 : S4096x4096.Transposes [1, 0] S4096x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S8192x4096_S4x2048x4096 : S8192x4096.ShapeCasts S4x2048x4096
  gather_S256x8_S4096x512x1_S4096x512x8_2_0_n_n_0_2_18_wf : GatherDims.WF S256x8 S4096x512x1 S4096x512x8 [2] [0] [] [0] [] 2 ![1, 8]
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .f32 = 32 ∨ (Rect.block (s := S8192x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x4096.size a
  hwx0_1 : ∀ i : grid0.Coords, EltTy.bits .f32 = 32 ∨ (Rect.block (s := S1x4096) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .bf16 = 32 ∨ (Rect.block (s := S4096x4096) S1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x4096.size a
  hwx0_3 : ∀ i : grid0.Coords, EltTy.bits .f32 = 32 ∨ (Rect.block (s := S8192x4096) S1024x1024.size (cc0_transform_3 i) (hinb0_3 i)).WholeWords (EltTy.packing .f32)

variable [Facts₀]

def gather_S256x8_S4096x512x1_S4096x512x8_2_0_n_n_0_2_18 : GatherDims S256x8 S4096x512x1 S4096x512x8 where
  offsetDims := [2]
  collapsedSliceDims := [0]
  operandBatchingDims := []
  startIndicesBatchingDims := []
  startIndexMap := [0]
  indexVectorDim := 2
  sliceSizes := ![1, 8]
  wf := gather_S256x8_S4096x512x1_S4096x512x8_2_0_n_n_0_2_18_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S1x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x512x2 : Shape := ⟨3, ![4096, 512, 2]⟩
abbrev S2x256x8 : Shape := ⟨3, ![2, 256, 8]⟩
abbrev S4096 : Shape := ⟨1, ![4096]⟩
abbrev S1x1x4096 : Shape := ⟨3, ![1, 1, 4096]⟩
abbrev S8192x4096 : Shape := ⟨2, ![8192, 4096]⟩
abbrev S1x256x8 : Shape := ⟨3, ![1, 256, 8]⟩
abbrev S256x8 : Shape := ⟨2, ![256, 8]⟩
abbrev S4096x512x1 : Shape := ⟨3, ![4096, 512, 1]⟩
abbrev S4096x512 : Shape := ⟨2, ![4096, 512]⟩
abbrev S_ : Shape := ⟨0, ![]⟩
abbrev S4096x512x8 : Shape := ⟨3, ![4096, 512, 8]⟩
abbrev S4096x4096 : Shape := ⟨2, ![4096, 4096]⟩

abbrev nBuf : Space → Nat
  | .hbm => 50
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x512x2, .i32⟩
  | .hbm, ⟨2, _⟩ => ⟨S2x256x8, .bf16⟩
  | .hbm, ⟨3, _⟩ => ⟨S4096, .f32⟩
  | .hbm, ⟨4, _⟩ => ⟨S1x1x4096, .f32⟩
  | .hbm, ⟨5, _⟩ => ⟨S4x2048x4096, .f32⟩
  | .hbm, ⟨6, _⟩ => ⟨S4x2048x4096, .f32⟩
  | .hbm, ⟨7, _⟩ => ⟨S8192x4096, .f32⟩
  | .hbm, ⟨8, _⟩ => ⟨S2x256x8, .f32⟩
  | .hbm, ⟨9, _⟩ => ⟨S1x256x8, .f32⟩
  | .hbm, ⟨10, _⟩ => ⟨S256x8, .f32⟩
  | .hbm, ⟨11, _⟩ => ⟨S4096x512x1, .i32⟩
  | .hbm, ⟨12, _⟩ => ⟨S4096x512, .i32⟩
  | .hbm, ⟨13, _⟩ => ⟨S_, .i32⟩
  | .hbm, ⟨14, _⟩ => ⟨S4096x512, .i32⟩
  | .hbm, ⟨15, _⟩ => ⟨S4096x512, .i1⟩
  | .hbm, ⟨16, _⟩ => ⟨S_, .i32⟩
  | .hbm, ⟨17, _⟩ => ⟨S4096x512, .i32⟩
  | .hbm, ⟨18, _⟩ => ⟨S4096x512, .i32⟩
  | .hbm, ⟨19, _⟩ => ⟨S4096x512, .i32⟩
  | .hbm, ⟨20, _⟩ => ⟨S4096x512x1, .i32⟩
  | .hbm, ⟨21, _⟩ => ⟨S4096x512x8, .f32⟩
  | .hbm, ⟨22, _⟩ => ⟨S_, .f32⟩
  | .hbm, ⟨23, _⟩ => ⟨S4096x512x8, .f32⟩
  | .hbm, ⟨24, _⟩ => ⟨S4096x512x8, .f32⟩
  | .hbm, ⟨25, _⟩ => ⟨S1x256x8, .f32⟩
  | .hbm, ⟨26, _⟩ => ⟨S256x8, .f32⟩
  | .hbm, ⟨27, _⟩ => ⟨S4096x512x1, .i32⟩
  | .hbm, ⟨28, _⟩ => ⟨S4096x512, .i32⟩
  | .hbm, ⟨29, _⟩ => ⟨S_, .i32⟩
  | .hbm, ⟨30, _⟩ => ⟨S4096x512, .i32⟩
  | .hbm, ⟨31, _⟩ => ⟨S4096x512, .i1⟩
  | .hbm, ⟨32, _⟩ => ⟨S_, .i32⟩
  | .hbm, ⟨33, _⟩ => ⟨S4096x512, .i32⟩
  | .hbm, ⟨34, _⟩ => ⟨S4096x512, .i32⟩
  | .hbm, ⟨35, _⟩ => ⟨S4096x512, .i32⟩
  | .hbm, ⟨36, _⟩ => ⟨S4096x512x1, .i32⟩
  | .hbm, ⟨37, _⟩ => ⟨S4096x512x8, .f32⟩
  | .hbm, ⟨38, _⟩ => ⟨S4096x512x8, .f32⟩
  | .hbm, ⟨39, _⟩ => ⟨S4096x4096, .f32⟩
  | .hbm, ⟨40, _⟩ => ⟨S8192x4096, .f32⟩
  | .hbm, ⟨41, _⟩ => ⟨S4x2048x4096, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4x2048x4096, .f32⟩
  | .hbm, ⟨46, _⟩ => ⟨S4x2048x4096, .f32⟩
  | .hbm, ⟨47, _⟩ => ⟨S_, .f32⟩
  | .hbm, ⟨48, _⟩ => ⟨S4x2048x4096, .f32⟩
  | .hbm, ⟨49, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_v22 : Ref sig .tc := ⟨.hbm, 30, rfl⟩
abbrev main_v23 : Ref sig .tc := ⟨.hbm, 31, rfl⟩
abbrev main_c_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_cst_4 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v33 : Ref sig .tc := ⟨.hbm, 49, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  shapeCasts_S4x2048x4096_S8192x4096 : S4x2048x4096.ShapeCasts S8192x4096
  bitsLt_bf16_f32 : FTy.bits .bf16 < FTy.bits .f32
  slices_S2x256x8_S1x256x8_0_0_0 : S2x256x8.Slices ![0, 0, 0] S1x256x8
  shapeCasts_S1x256x8_S256x8 : S1x256x8.ShapeCasts S256x8
  slices_S4096x512x2_S4096x512x1_0_0_0 : S4096x512x2.Slices ![0, 0, 0] S4096x512x1
  shapeCasts_S4096x512x1_S4096x512 : S4096x512x1.ShapeCasts S4096x512
  bcast_S_S4096x512 : S_.BroadcastsInDim S4096x512 (![] : Fin 0 → Fin S4096x512.rank)
  bcast_S4096x512_S4096x512x1_0_1 : S4096x512.BroadcastsInDim S4096x512x1 (![0, 1] : Fin 2 → Fin S4096x512x1.rank)
  bcast_S_S4096x512x8 : S_.BroadcastsInDim S4096x512x8 (![] : Fin 0 → Fin S4096x512x8.rank)
  slices_S2x256x8_S1x256x8_1_0_0 : S2x256x8.Slices ![1, 0, 0] S1x256x8
  slices_S4096x512x2_S4096x512x1_0_0_1 : S4096x512x2.Slices ![0, 0, 1] S4096x512x1
  shapeCasts_S4096x512x8_S4096x4096 : S4096x512x8.ShapeCasts S4096x4096
  shapeCasts_S8192x4096_S4x2048x4096 : S8192x4096.ShapeCasts S4x2048x4096
  bcast_S_S4x2048x4096 : S_.BroadcastsInDim S4x2048x4096 (![] : Fin 0 → Fin S4x2048x4096.rank)
  gather_S256x8_S4096x512x1_S4096x512x8_2_0_n_n_0_2_18_wf : GatherDims.WF S256x8 S4096x512x1 S4096x512x8 [2] [0] [] [0] [] 2 ![1, 8]
  dot_S8192x4096_S4096x4096_S8192x4096_1_1_0_0_n_n_wf : DotDims.WF S8192x4096 S4096x4096 S8192x4096 [1] [1] [0] [0] [] []

variable [Facts₀]

def gather_S256x8_S4096x512x1_S4096x512x8_2_0_n_n_0_2_18 : GatherDims S256x8 S4096x512x1 S4096x512x8 where
  offsetDims := [2]
  collapsedSliceDims := [0]
  operandBatchingDims := []
  startIndicesBatchingDims := []
  startIndexMap := [0]
  indexVectorDim := 2
  sliceSizes := ![1, 8]
  wf := gather_S256x8_S4096x512x1_S4096x512x8_2_0_n_n_0_2_18_wf
def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What each control case of the body leaves behind, as a value.

  The body has three cases along the contracted grid axis `k`:
    * first step (`k = 0`): the accumulator is zeroed, then one product is added: it ends at `step x s 0 w`;
    * middle steps (`k = 1, 2`): one product is added to what the previous point left: `step x s acc w`;
    * last step (`k = 3`): the same accumulation, and the output block receives the clamped accumulator.
  Each case's stores cover the whole 1024 × 1024 buffer with one rectangle at offset zero, so reading the
  written pieces back gives the stored value itself, and every load the stored value depends on reads a whole
  buffer: the block handed to the body, or (for the accumulator) what the reset or the previous point left.
  All statements hold for any float instance.
-/
import proofs.«114170_j11579231830501_1_alg».proof.Proof.Gen.KernelIdeal.Frame
import Idealize.ShloMosaic.Lib.Pipeline.Value
import Idealize.ShloMosaic.Lib.Tactic

set_option maxRecDepth 16384

noncomputable section

namespace Cert.KernelIdeal.Found

open Cert.KernelIdeal Cert.KernelIdeal.Gen Idealize.ShloMosaic Idealize.ShloMosaic.TcCoe Idealize.ShloMosaic.Tactic Idealize.SL.Sem

variable {F : FTy → Type} [FloatOps F]

/-- Every store and load of the body starts at offset `(0, 0)`. -/
theorem hz : (![0, 0] : Fin 2 → Nat) = fun _ => 0 := funext fun a => by fin_cases a <;> rfl

/-- First step: the accumulator ends at one product added to the zero block. -/
theorem scratch_first (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : cond0_0 i) (hc1 : ¬cond0_1 i)
    (x0 : Vec F S1024x1024 .f32) (x1 : Vec F S1x1024 .f32) (x2 : Vec F S1024x1024 .bf16) :
    sout0_A_0 c i arg3 harg3 arg4 harg4 arg5 harg5 arg6 harg6 arg7 harg7 hc0 hc1 x0 x1 x2 = k0_pay2 x0 x1 k0_pay1 x2 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread,
    View.ld_unit_zero (S := S1024x1024) hz, View.ld_unit_zero (S := S1x1024) hz]

/-- Middle step: one product added to what the previous point left. -/
theorem scratch_middle (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : ¬cond0_1 i)
    (x0 : Vec F S1024x1024 .f32) (x1 : Vec F S1x1024 .f32) (x2 : Vec F S1024x1024 .bf16) (xs0 : Vec F S1024x1024 .f32) :
    sout0_B_0 c i arg3 harg3 arg4 harg4 arg5 harg5 arg6 harg6 arg7 harg7 hc0 hc1 x0 x1 x2 xs0 = k0_pay2 x0 x1 xs0 x2 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz]

/-- Last step, the accumulator: as in a middle step. -/
theorem scratch_last (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1x1024 .f32) (x2 : Vec F S1024x1024 .bf16) (xs0 : Vec F S1024x1024 .f32) :
    sout0_C_0 c i arg3 harg3 arg4 harg4 arg5 harg5 arg6 harg6 arg7 harg7 hc0 hc1 x0 x1 x2 xs0 = k0_pay2 x0 x1 xs0 x2 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg5.read_unread, harg7.read_unread,
    View.ld_unit_zero (S := S1024x1024) hz, View.ld_unit_zero (S := S1x1024) hz]

/-- Last step, the output block: the clamp of the accumulator just stored. -/
theorem out_last (c : Dev nD) (i : grid0.Coords) (arg3 : Memref sig .tc .vmem S1024x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1024x1024 .f32) (harg6 : arg6.IsWhole) (arg7 : Memref sig .tc .vmem S1024x1024 .f32) (harg7 : arg7.IsWhole) (hc0 : ¬cond0_0 i) (hc1 : cond0_1 i)
    (x0 : Vec F S1024x1024 .f32) (x1 : Vec F S1x1024 .f32) (x2 : Vec F S1024x1024 .bf16) (xs0 : Vec F S1024x1024 .f32) :
    out0_C_3 c i arg3 harg3 arg4 harg4 arg5 harg5 arg6 harg6 arg7 harg7 hc0 hc1 x0 x1 x2 xs0 = k0_pay3 (k0_pay2 x0 x1 xs0 x2) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S1024x1024) _ hz, View.readAt_eq_ld, harg3.read_unread, harg4.read_unread,
    harg5.read_unread, harg7.read_unread, View.ld_unit_zero (S := S1024x1024) hz, View.ld_unit_zero (S := S1x1024) hz]

end Cert.KernelIdeal.Found

end
-- ==== Proof.Chain.lean ====
/-
  The accumulator point by point.

  The grid is `8 × 4 × 4`, walked with the last axis `k` fastest, so point `n` has `k = n % 4`. Along each run of
  four points the scratch accumulator is zeroed and stepped at `k = 0` and stepped at `k = 1, 2, 3`; the output block is
  written at `k = 3` only, with the clamped accumulator. `acc n` is that ordered chain as one value, defined by
  recursion on the point; `scratch_eq` says it is what the scratch buffer holds after point `n`, by induction on `n`,
  and `out_eq` what the output's staging buffer holds after a point with `k = 3`.
-/
import proofs.«114170_j11579231830501_1_alg».proof.Proof.Pieces

set_option maxRecDepth 16384

noncomputable section

namespace Cert.KernelIdeal.Chain

open Cert.KernelIdeal Cert.KernelIdeal.Gen Cert.KernelIdeal.Found Idealize.ShloMosaic Idealize.ShloMosaic.TcCoe Idealize.SL.Sem

variable {F : FTy → Type} [FloatOps F]
variable (m : (ℓ : Loc nD τ sig) → Buf (Elt F) ℓ)

/-- The three input blocks handed to the body at point `t`, at their literal types. -/
abbrev xblk (c : Dev nD) (t : Fin cfg0.N) : Vec F S1024x1024 .f32 := iblk m c 0 t
abbrev sblk (c : Dev nD) (t : Fin cfg0.N) : Vec F S1x1024 .f32 := iblk m c 1 t
abbrev wblk (c : Dev nD) (t : Fin cfg0.N) : Vec F S1024x1024 .bf16 := iblk m c 2 t

/-- The accumulator after point `n`: a fresh start from zero where `n % 4 = 0`, one more step otherwise. -/
def acc (c : Dev nD) : (n : ℕ) → n < cfg0.N → Vec F S1024x1024 .f32
  | 0, h => k0_pay2 (xblk m c ⟨0, h⟩) (sblk m c ⟨0, h⟩) k0_pay1 (wblk m c ⟨0, h⟩)
  | n + 1, h =>
    if (n + 1) % 4 = 0 then k0_pay2 (xblk m c ⟨n + 1, h⟩) (sblk m c ⟨n + 1, h⟩) k0_pay1 (wblk m c ⟨n + 1, h⟩)
    else k0_pay2 (xblk m c ⟨n + 1, h⟩) (sblk m c ⟨n + 1, h⟩) (acc c n (Nat.lt_of_succ_lt h)) (wblk m c ⟨n + 1, h⟩)

/-- At the first point of a run of four the chain restarts from the zero block. -/
theorem acc_reset (c : Dev nD) (n : ℕ) (h : n < cfg0.N) (h0 : n % 4 = 0) :
    acc m c n h = k0_pay2 (xblk m c ⟨n, h⟩) (sblk m c ⟨n, h⟩) k0_pay1 (wblk m c ⟨n, h⟩) := by
  cases n with
  | zero => rfl
  | succ n => exact if_pos h0

/-- At the other points it takes one step from the point before. -/
theorem acc_step (c : Dev nD) (n : ℕ) (h : n + 1 < cfg0.N) (h0 : ¬(n + 1) % 4 = 0) :
    acc m c (n + 1) h
      = k0_pay2 (xblk m c ⟨n + 1, h⟩) (sblk m c ⟨n + 1, h⟩) (acc m c n (Nat.lt_of_succ_lt h)) (wblk m c ⟨n + 1, h⟩) :=
  if_neg h0

/-- What the scratch buffer holds after point `n` is the chain. -/
theorem scratch_eq (c : Dev nD) : ∀ (n : ℕ) (h : n < cfg0.N), (outsAt0 m c n h).2 = acc m c n h
  | 0, h => by
    rw [outsAt0_A m c ⟨0, h⟩ (Nat.zero_mod _) (show ¬(0 % 4 = 3) by decide)]
    dsimp only
    exact scratch_first c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) scM0_0 (Memref.isWhole_whole _) ((hcond0_0 ⟨0, h⟩).mpr (Nat.zero_mod _)) (fun hh => absurd ((hcond0_1 ⟨0, h⟩).mp hh) (show ¬(0 % 4 = 3) by decide)) (iblk m c 0 ⟨0, h⟩) (iblk m c 1 ⟨0, h⟩) (iblk m c 2 ⟨0, h⟩)
  | n + 1, h => by
    by_cases h0 : (n + 1) % 4 = 0
    · have h1 : ¬(n + 1) % 4 = 3 := by omega
      rw [outsAt0_A m c ⟨n + 1, h⟩ h0 h1, acc_reset m c (n + 1) h h0]
      dsimp only
      exact scratch_first c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) ((hcond0_0 ⟨n + 1, h⟩).mpr h0) (fun hh => h1 ((hcond0_1 ⟨n + 1, h⟩).mp hh)) (iblk m c 0 ⟨n + 1, h⟩) (iblk m c 1 ⟨n + 1, h⟩) (iblk m c 2 ⟨n + 1, h⟩)
    · rw [acc_step m c n h h0]
      by_cases h1 : (n + 1) % 4 = 3
      · rw [outsAt0_C m c ⟨n + 1, h⟩ h0 h1]
        dsimp only
        refine (scratch_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2).trans ?_
        exact congrArg (fun a => k0_pay2 (xblk m c ⟨n + 1, h⟩) (sblk m c ⟨n + 1, h⟩) a (wblk m c ⟨n + 1, h⟩)) (scratch_eq c n (Nat.lt_of_succ_lt h))
      · rw [outsAt0_B m c ⟨n + 1, h⟩ h0 h1]
        dsimp only
        refine (scratch_middle c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2).trans ?_
        exact congrArg (fun a => k0_pay2 (xblk m c ⟨n + 1, h⟩) (sblk m c ⟨n + 1, h⟩) a (wblk m c ⟨n + 1, h⟩)) (scratch_eq c n (Nat.lt_of_succ_lt h))

/-- What the output's staging buffer holds after a point with `k = 3`: the clamped chain. -/
theorem out_eq (c : Dev nD) (t : Fin cfg0.N) (h3 : t.val % 4 = 3) :
    (outsAt0 m c t.val t.isLt).1 = k0_pay3 (acc m c t.val t.isLt) := by
  obtain ⟨n, h⟩ := t
  cases n with
  | zero => exact absurd h3 (show ¬(0 % 4 = 3) by decide)
  | succ n =>
    have h0 : ¬(n + 1) % 4 = 0 := by dsimp only at h3; omega
    rw [outsAt0_C m c ⟨n + 1, h⟩ h0 h3]
    dsimp only
    rw [acc_step m c n h h0]
    refine (out_last c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) scM0_0 (Memref.isWhole_whole _) (fun hh => h0 ((hcond0_0 ⟨n + 1, h⟩).mp hh)) ((hcond0_1 ⟨n + 1, h⟩).mpr h3) (iblk m c 0 ⟨n + 1, h⟩) (iblk m c 1 ⟨n + 1, h⟩) (iblk m c 2 ⟨n + 1, h⟩) (outsAt0 m c n (Nat.lt_of_succ_lt h)).2).trans ?_
    exact congrArg (fun a => k0_pay3 (k0_pay2 (xblk m c ⟨n + 1, h⟩) (sblk m c ⟨n + 1, h⟩) a (wblk m c ⟨n + 1, h⟩))) (scratch_eq m c n (Nat.lt_of_succ_lt h))

end Cert.KernelIdeal.Chain

end
-- ==== Proof.Blocks.lean ====
/-
  A window's block at a grid point, entry by entry, in the whole array.

  Point `t` of the `8 × 4 × 4` grid (last axis fastest) is `(i, j, k) = (t / 16, t / 4 % 4, t % 4)`. The four windows cut
  1024-wide blocks: the activations at block `(i, k)`, the one-row scales at `(0, k)`, the transposed weights at
  `(k, j)`, the output at `(i, j)`. Entry `y` of a block at block index `b` sits at `1024 · b + y` along each axis.
-/
import proofs.«114170_j11579231830501_1_alg».proof.Proof.Gen.KernelIdeal.Frame
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx Idealize.SL.Sem

variable {F : FTy → Type} [FloatOps F]
variable (m : (ℓ : Loc nD τ sig) → Buf (Elt F) ℓ)

/-- The block indices of the four windows at point `t`, decided once over the 128 points. -/
theorem idx_x : ∀ t : Fin cfg0.N, win0_0.index t (0 : Fin 2) = t.val / 16 ∧ win0_0.index t (1 : Fin 2) = t.val % 4 :=
  (by decide +kernel : ∀ t : Fin grid0.N, win0_0.index t (0 : Fin 2) = t.val / 16 ∧ win0_0.index t (1 : Fin 2) = t.val % 4)
theorem idx_s : ∀ t : Fin cfg0.N, win0_1.index t (0 : Fin 2) = 0 ∧ win0_1.index t (1 : Fin 2) = t.val % 4 :=
  (by decide +kernel : ∀ t : Fin grid0.N, win0_1.index t (0 : Fin 2) = 0 ∧ win0_1.index t (1 : Fin 2) = t.val % 4)
theorem idx_w : ∀ t : Fin cfg0.N, win0_2.index t (0 : Fin 2) = t.val % 4 ∧ win0_2.index t (1 : Fin 2) = t.val / 4 % 4 :=
  (by decide +kernel : ∀ t : Fin grid0.N, win0_2.index t (0 : Fin 2) = t.val % 4 ∧ win0_2.index t (1 : Fin 2) = t.val / 4 % 4)
theorem idx_o : ∀ t : Fin cfg0.N, win0_3.index t (0 : Fin 2) = t.val / 16 ∧ win0_3.index t (1 : Fin 2) = t.val / 4 % 4 :=
  (by decide +kernel : ∀ t : Fin grid0.N, win0_3.index t (0 : Fin 2) = t.val / 16 ∧ win0_3.index t (1 : Fin 2) = t.val / 4 % 4)

/-- Activations: entry `(p, kk)` of the block at `t` is row `1024 · (t / 16) + p`, column `1024 · (t % 4) + kk`. -/
theorem x_apply (c : Dev nD) (t : Fin cfg0.N) (p kk : Fin 1024) (r : Fin 8192) (k : Fin 4096)
    (hr : r.val = 1024 * (t.val / 16) + p.val) (hk : k.val = 1024 * (t.val % 4) + kk.val) :
    (iblk m c 0 t : Vec F S1024x1024 .f32) (ix2 p kk) = (V m c main_v0 : Vec F S8192x4096 .f32) (ix2 r k) := by
  unfold iblk
  rw [View.read_apply]
  show V m c main_v0 _ = V m c main_v0 _
  refine congrArg (V m c main_v0) (funext fun a => Fin.ext ?_)
  match a with
  | ⟨0, _⟩ => show win0_0.index t (0 : Fin 2) * 1024 + 1 * p.val = r.val; rw [(idx_x t).1, hr]; omega
  | ⟨1, _⟩ => show win0_0.index t (1 : Fin 2) * 1024 + 1 * kk.val = k.val; rw [(idx_x t).2, hk]; omega

/-- Scales: entry `(0, kk)` of the block at `t` is column `1024 · (t % 4) + kk` of the one row. -/
theorem s_apply (c : Dev nD) (t : Fin cfg0.N) (kk : Fin 1024) (k : Fin 4096)
    (hk : k.val = 1024 * (t.val % 4) + kk.val) :
    (iblk m c 1 t : Vec F S1x1024 .f32) (ix2 (0 : Fin 1) kk) = (V m c main_v30 : Vec F S1x4096 .f32) (ix2 (0 : Fin 1) k) := by
  unfold iblk
  rw [View.read_apply]
  show V m c main_v30 _ = V m c main_v30 _
  refine congrArg (V m c main_v30) (funext fun a => Fin.ext ?_)
  match a with
  | ⟨0, _⟩ => show win0_1.index t (0 : Fin 2) * 1 + 1 * 0 = 0; rw [(idx_s t).1]
  | ⟨1, _⟩ => show win0_1.index t (1 : Fin 2) * 1024 + 1 * kk.val = k.val; rw [(idx_s t).2, hk]; omega

/-- Transposed weights: entry `(kk, q)` of the block at `t` is row `1024 · (t % 4) + kk`, column `1024 · (t / 4 % 4) + q`. -/
theorem w_apply (c : Dev nD) (t : Fin cfg0.N) (kk q : Fin 1024) (k o : Fin 4096)
    (hk : k.val = 1024 * (t.val % 4) + kk.val) (ho : o.val = 1024 * (t.val / 4 % 4) + q.val) :
    (iblk m c 2 t : Vec F S1024x1024 .bf16) (ix2 kk q) = (V m c main_v29 : Vec F S4096x4096 .bf16) (ix2 k o) := by
  unfold iblk
  rw [View.read_apply]
  show V m c main_v29 _ = V m c main_v29 _
  refine congrArg (V m c main_v29) (funext fun a => Fin.ext ?_)
  match a with
  | ⟨0, _⟩ => show win0_2.index t (0 : Fin 2) * 1024 + 1 * kk.val = k.val; rw [(idx_w t).1, hk]; omega
  | ⟨1, _⟩ => show win0_2.index t (1 : Fin 2) * 1024 + 1 * q.val = o.val; rw [(idx_w t).2, ho]; omega

end Cert.KernelIdeal.Blocks

end
-- ==== Proof.PayAt.lean ====
/-
  The three values the kernel body stores, read at an index over the extended reals.

  * the reset stores the zero block;
  * every grid point stores `acc + (x ⊙ s) · w`: the carried accumulator plus the product of the x block, each column
    scaled by the matching entry of the one-row scale block, with the weight block. Narrowing the scaled block to
    bf16 is the identity on the extended reals, and the matrix unit's product into a zero accumulator is the plain
    sum over the 1024-long contracted axis;
  * the last point of each group stores the accumulator clamped between the two literal bounds, the lower bound
    applied first (`max`), then the upper (`min`).
-/
import proofs.«114170_j11579231830501_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BodyValue

open Cert.KernelIdeal Cert.KernelIdeal.Gen Idealize.ShloMosaic Idealize.ShloMosaic.ValueIdx

/-- The reset's block is zero everywhere. -/
theorem reset_apply (y : S1024x1024.Idx) : k0_pay1 (F := Ideal) y = 0 := by
  unfold k0_pay1
  rw [shapeCast_self]
  show Ideal.ofBits .f32 0x00000000#32 = 0
  exact Ideal.ofBits_zero_f32

/-! ### The matrix unit's index maps: output `(p, q)`, contraction position `kk` ↦ left `(p, kk)`, right `(kk, q)` -/

theorem lhs_mm_0 (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_mm_1 (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_mm_0 (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_mm_1 (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into a zero accumulator, at `(p, q)`: the sum over the 1024 contraction positions. -/
theorem mm_apply (l r : FVec Ideal S1024x1024 .bf16) (j : S1024x1024.Idx) :
    matmul dot_S1024x1024_S1024x1024_S1024x1024_1_0_0_1_n_n none l r (constant S1024x1024 .f32 0x00000000#32) j
      = ∑ kk : Fin 1024, l (ix2 (j 0) kk) * r (ix2 kk (j 1)) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx j ((ValueIdx.contrEquiv1 dot_S1024x1024_S1024x1024_S1024x1024_1_0_0_1_n_n 1024 rfl rfl).symm k) = ix2 (j 0) k := funext fun a => Fin.ext (by
    match a with
    | ⟨0, _⟩ => exact lhs_mm_0 _ _
    | ⟨1, _⟩ => exact (lhs_mm_1 _ _).trans hk)
  have er : dot_S1024x1024_S1024x1024_S1024x1024_1_0_0_1_n_n.rhsIdx j ((ValueIdx.contrEquiv1 dot_S1024x1024_S1024x1024_S1024x1024_1_0_0_1_n_n 1024 rfl rfl).symm k) = ix2 k (j 1) := funext fun a => Fin.ext (by
    match a with
    | ⟨0, _⟩ => exact (rhs_mm_0 _ _).trans hk
    | ⟨1, _⟩ => exact rhs_mm_1 _ _)
  exact congrArg₂ (· * ·) (congrArg l el) (congrArg r er)

/-- The one-row scale block spread over the 1024 rows: row `p`, column `kk` reads the scale at column `kk`. -/
theorem scale_bcast_apply (s : Vec Ideal S1x1024 .f32) (p kk : Fin 1024) :
    broadcastTo S1024x1024 s broadcasts_S1x1024_S1024x1024 (ix2 p kk) = s (ix2 (0 : Fin 1) kk) :=
  broadcastTo_apply s broadcasts_S1x1024_S1024x1024 (ix2 p kk) (ix2 (0 : Fin 1) kk) (fun a => match a with
    | ⟨0, _⟩ => by show (0 : Nat) = if (1 : Nat) = 1 then 0 else _; rw [if_pos rfl]
    | ⟨1, _⟩ => by show kk.val = if (1024 : Nat) = 1 then 0 else kk.val; rw [if_neg (by decide)])

/-- One accumulation step at `(p, q)`: the accumulator there plus `∑ kk, (x (p, kk) · s (0, kk)) · w (kk, q)`. -/
theorem step_apply (x : Vec Ideal S1024x1024 .f32) (s : Vec Ideal S1x1024 .f32) (a : Vec Ideal S1024x1024 .f32)
    (w : Vec Ideal S1024x1024 .bf16) (p q : Fin 1024) :
    k0_pay2 (F := Ideal) x s a w (ix2 p q)
      = a (ix2 p q) + ∑ kk : Fin 1024, (x (ix2 p kk) * s (ix2 (0 : Fin 1) kk)) * w (ix2 kk q) := by
  unfold k0_pay2
  simp only [shapeCast_self]
  rw [addf_apply, mm_apply]
  refine congrArg (a (ix2 p q) + ·) (Finset.sum_congr rfl fun kk _ => ?_)
  rw [truncf_apply, mulf_apply, scale_bcast_apply]

/-- The clamp at an index: `min hi (max lo a)`. -/
theorem clamp_apply (a : Vec Ideal S1024x1024 .f32) (y : S1024x1024.Idx) :
    k0_pay3 (F := Ideal) a y
      = min (Ideal.ofBits .f32 0x42480000#32) (max (Ideal.ofBits .f32 0xC2480000#32) (a y)) := rfl

end Cert.KernelIdeal.BodyValue

end
-- ==== Proof.FourSteps.lean ====
/-
  Four accumulation steps from zero, read at one entry.

  A run of four grid points leaves `step x₃ s₃ (step x₂ s₂ (step x₁ s₁ (step x₀ s₀ 0 w₀) w₁) w₂) w₃` in the
  accumulator. At entry `(p, q)` that is the ordered chain `(((0 + S₀) + S₁) + S₂) + S₃` of the four partial sums
  `S_b = ∑ kk, (x_b (p, kk) · s_b (0, kk)) · w_b (kk, q)`: each step adds its own sum to the entry it found.
-/
import proofs.«114170_j11579231830501_1_alg».proof.Proof.PayAt

noncomputable section

namespace Cert.KernelIdeal.BodyValue

open Cert.KernelIdeal Cert.KernelIdeal.Gen Idealize.ShloMosaic Idealize.ShloMosaic.ValueIdx

theorem four_steps_apply (x0 x1 x2 x3 : Vec Ideal S1024x1024 .f32) (s0 s1 s2 s3 : Vec Ideal S1x1024 .f32)
    (w0 w1 w2 w3 : Vec Ideal S1024x1024 .bf16) (p q : Fin 1024) :
    k0_pay2 (F := Ideal) x3 s3 (k0_pay2 x2 s2 (k0_pay2 x1 s1 (k0_pay2 x0 s0 (k0_pay1 (F := Ideal)) w0) w1) w2) w3 (ix2 p q)
      = (((0 + ∑ kk : Fin 1024, (x0 (ix2 p kk) * s0 (ix2 (0 : Fin 1) kk)) * w0 (ix2 kk q))
            + ∑ kk : Fin 1024, (x1 (ix2 p kk) * s1 (ix2 (0 : Fin 1) kk)) * w1 (ix2 kk q))
            + ∑ kk : Fin 1024, (x2 (ix2 p kk) * s2 (ix2 (0 : Fin 1) kk)) * w2 (ix2 kk q))
            + ∑ kk : Fin 1024, (x3 (ix2 p kk) * s3 (ix2 (0 : Fin 1) kk)) * w3 (ix2 kk q) := by
  rw [step_apply, step_apply, step_apply, step_apply, reset_apply]

end Cert.KernelIdeal.BodyValue

end
-- ==== Proof.SumSplit.lean ====
/-
  A sum over 4096 consecutive indices, cut into four runs of 1024 and added in order from zero.

  The kernel contracts its 4096-long axis in four steps of 1024, starting from a zero accumulator and adding one
  partial sum per step; the reference contracts the axis in one sum. In a commutative additive monoid the two
  agree: `0 + a = a`, and a sum over `Fin (a + b)` is the sum over the first `a` indices plus the sum over the
  last `b`. Nothing here needs subtraction or cancellation, so it holds on the extended reals with no
  finiteness assumption.
-/
import Mathlib.Algebra.BigOperators.Fin

namespace Cert.BlockSum

open Finset

/-- `∑ k : Fin 4096, f k` is the ordered chain `(((0 + S₀) + S₁) + S₂) + S₃` of the partial sums
    `S_b = ∑ kk : Fin 1024, f (1024·b + kk)`. -/
theorem sum_four_blocks {M : Type*} [AddCommMonoid M] (f : Fin 4096 → M) :
    (((0 + ∑ kk : Fin 1024, f ⟨0 + kk.val, by have := kk.isLt; omega⟩)
        + ∑ kk : Fin 1024, f ⟨1024 + kk.val, by have := kk.isLt; omega⟩)
        + ∑ kk : Fin 1024, f ⟨2048 + kk.val, by have := kk.isLt; omega⟩)
        + ∑ kk : Fin 1024, f ⟨3072 + kk.val, by have := kk.isLt; omega⟩
      = ∑ k : Fin 4096, f k := by
  rw [zero_add]
  -- cut the last 1024 off, three times
  have e3 : ∑ k : Fin 4096, f k
      = ∑ i : Fin 3072, f (Fin.castAdd 1024 i) + ∑ i : Fin 1024, f (Fin.natAdd 3072 i) :=
    Fin.sum_univ_add (a := 3072) (b := 1024) f
  have e2 : ∑ i : Fin 3072, f (Fin.castAdd 1024 i)
      = ∑ i : Fin 2048, f (Fin.castAdd 1024 (Fin.castAdd 1024 i))
        + ∑ i : Fin 1024, f (Fin.castAdd 1024 (Fin.natAdd 2048 i)) :=
    Fin.sum_univ_add (a := 2048) (b := 1024) fun i => f (Fin.castAdd 1024 i)
  have e1 : ∑ i : Fin 2048, f (Fin.castAdd 1024 (Fin.castAdd 1024 i))
      = ∑ i : Fin 1024, f (Fin.castAdd 1024 (Fin.castAdd 1024 (Fin.castAdd 1024 i)))
        + ∑ i : Fin 1024, f (Fin.castAdd 1024 (Fin.castAdd 1024 (Fin.natAdd 1024 i))) :=
    Fin.sum_univ_add (a := 1024) (b := 1024) fun i => f (Fin.castAdd 1024 (Fin.castAdd 1024 i))
  rw [e3, e2, e1]
  -- each re-indexed summand is `f` at the same natural number
  refine congrArg₂ (· + ·) (congrArg₂ (· + ·) (congrArg₂ (· + ·) ?_ ?_) ?_) ?_ <;>
    exact Finset.sum_congr rfl fun kk _ => congrArg f (Fin.ext (by simp [Fin.natAdd, Fin.castAdd]))

end Cert.BlockSum
-- ==== Proof.AccAt.lean ====
/-
  The accumulator after the last point of a run of four, entry by entry, as ONE sum over the whole contracted axis.

  At a point `t` with `t % 4 = 3` the chain has taken four steps from zero, at the points `t - 3 … t`, which share the
  output block `(i, j) = (t / 16, t / 4 % 4)` and walk `k = 0 … 3`. Step `k` adds
  `∑ kk, (X (1024 i + p, 1024 k + kk) · S (0, 1024 k + kk)) · Wt (1024 k + kk, 1024 j + q)` to entry `(p, q)`, where
  `X`, `S`, `Wt` are the three arrays the region finds (activations as a matrix, the one-row scales, the
  transposed weights). The four partial sums added in order from zero are the sum over all 4096 positions.
-/
import proofs.«114170_j11579231830501_1_alg».proof.Proof.Chain
import proofs.«114170_j11579231830501_1_alg».proof.Proof.Blocks
import proofs.«114170_j11579231830501_1_alg».proof.Proof.FourSteps
import proofs.«114170_j11579231830501_1_alg».proof.Proof.SumSplit

set_option maxRecDepth 16384

noncomputable section

namespace Cert.KernelIdeal.Result

open Cert.KernelIdeal Cert.KernelIdeal.Gen Cert.KernelIdeal.Chain Cert.KernelIdeal.Blocks Cert.KernelIdeal.BodyValue
open Idealize.ShloMosaic Idealize.ShloMosaic.TcCoe Idealize.ShloMosaic.ValueIdx Idealize.SL.Sem

variable (m : (ℓ : Loc nD τ sig) → Buf (Elt Ideal) ℓ)

/-- The three arrays the region finds, at their literal types: the activations as a matrix, the one-row scales, the
    transposed bf16 weights. -/
abbrev Xa (c : Dev nD) : Vec Ideal S8192x4096 .f32 := V m c main_v0
abbrev Sa (c : Dev nD) : Vec Ideal S1x4096 .f32 := V m c main_v30
abbrev Wa (c : Dev nD) : Vec Ideal S4096x4096 .bf16 := V m c main_v29

/-- One term of the contraction for output entry `(r, o)`: the scaled activation times the weight, at position `k`. -/
abbrev term (c : Dev nD) (r : Fin 8192) (o k : Fin 4096) : EReal :=
  (Xa m c (ix2 r k) * Sa m c (ix2 (0 : Fin 1) k)) * Wa m c (ix2 k o)

/-- One step at point `t`, as a function of the accumulator it finds. -/
abbrev stepAt (c : Dev nD) (t : Fin cfg0.N) (a : Vec Ideal S1024x1024 .f32) : Vec Ideal S1024x1024 .f32 :=
  k0_pay2 (xblk m c t) (sblk m c t) a (wblk m c t)

/-- The chain at the last point of a run: four steps from the zero block. -/
theorem acc_unfold (c : Dev nD) (n : ℕ) (h : n + 3 < cfg0.N) (h0 : n % 4 = 0) :
    acc m c (n + 3) h
      = stepAt m c ⟨n + 3, h⟩ (stepAt m c ⟨n + 2, Nat.lt_of_succ_lt h⟩
          (stepAt m c ⟨n + 1, Nat.lt_of_succ_lt (Nat.lt_of_succ_lt h)⟩
            (stepAt m c ⟨n, Nat.lt_of_succ_lt (Nat.lt_of_succ_lt (Nat.lt_of_succ_lt h))⟩ (k0_pay1 (F := Ideal))))) :=
  (acc_step m c (n + 2) h (by omega)).trans <|
    congrArg (stepAt m c ⟨n + 3, h⟩) <|
      (acc_step m c (n + 1) (Nat.lt_of_succ_lt h) (by omega)).trans <|
        congrArg (stepAt m c ⟨n + 2, Nat.lt_of_succ_lt h⟩) <|
          (acc_step m c n (Nat.lt_of_succ_lt (Nat.lt_of_succ_lt h)) (by omega)).trans <|
            congrArg (stepAt m c ⟨n + 1, Nat.lt_of_succ_lt (Nat.lt_of_succ_lt h)⟩)
              (acc_reset m c n (Nat.lt_of_succ_lt (Nat.lt_of_succ_lt (Nat.lt_of_succ_lt h))) h0)

/-- Entry `(p, q)` of the chain at such a point is the whole contraction for the global entry `(r, o)` it belongs to. -/
theorem acc_apply (c : Dev nD) (t : Fin cfg0.N) (h3 : t.val % 4 = 3) (p q : Fin 1024) (r : Fin 8192) (o : Fin 4096)
    (hr : r.val = 1024 * (t.val / 16) + p.val) (ho : o.val = 1024 * (t.val / 4 % 4) + q.val) :
    acc m c t.val t.isLt (ix2 p q) = ∑ k : Fin 4096, term m c r o k := by
  obtain ⟨tv, ht⟩ := t
  dsimp only at h3 hr ho ⊢
  obtain ⟨n, rfl⟩ : ∃ n, tv = n + 3 := ⟨tv - 3, by omega⟩
  have hN : n + 3 < 128 := lt_of_lt_of_eq ht N_0
  have h0 : n % 4 = 0 := by omega
  have l2 : n + 2 < cfg0.N := Nat.lt_of_succ_lt ht
  have l1 : n + 1 < cfg0.N := Nat.lt_of_succ_lt l2
  have l0 : n < cfg0.N := Nat.lt_of_succ_lt l1
  refine (congrFun (acc_unfold m c n ht h0) (ix2 p q)).trans ?_
  refine (four_steps_apply (xblk m c ⟨n, l0⟩) (xblk m c ⟨n + 1, l1⟩) (xblk m c ⟨n + 2, l2⟩) (xblk m c ⟨n + 3, ht⟩)
    (sblk m c ⟨n, l0⟩) (sblk m c ⟨n + 1, l1⟩) (sblk m c ⟨n + 2, l2⟩) (sblk m c ⟨n + 3, ht⟩)
    (wblk m c ⟨n, l0⟩) (wblk m c ⟨n + 1, l1⟩) (wblk m c ⟨n + 2, l2⟩) (wblk m c ⟨n + 3, ht⟩) p q).trans ?_
  refine Eq.trans ?_ (Cert.BlockSum.sum_four_blocks (term m c r o))
  refine congrArg₂ (· + ·) (congrArg₂ (· + ·) (congrArg₂ (· + ·) (congrArg (0 + ·) ?_) ?_) ?_) ?_
  · refine Finset.sum_congr rfl fun kk _ => ?_
    have hkk := kk.isLt
    exact congrArg₂ (· * ·)
      (congrArg₂ (· * ·)
        (x_apply m c ⟨n, l0⟩ p kk r _ (show r.val = 1024 * (n / 16) + p.val by omega) (show 0 + kk.val = 1024 * (n % 4) + kk.val by omega))
        (s_apply m c ⟨n, l0⟩ kk _ (show 0 + kk.val = 1024 * (n % 4) + kk.val by omega)))
      (w_apply m c ⟨n, l0⟩ kk q _ o (show 0 + kk.val = 1024 * (n % 4) + kk.val by omega) (show o.val = 1024 * (n / 4 % 4) + q.val by omega))
  · refine Finset.sum_congr rfl fun kk _ => ?_
    have hkk := kk.isLt
    exact congrArg₂ (· * ·)
      (congrArg₂ (· * ·)
        (x_apply m c ⟨n + 1, l1⟩ p kk r _ (show r.val = 1024 * ((n + 1) / 16) + p.val by omega) (show 1024 + kk.val = 1024 * ((n + 1) % 4) + kk.val by omega))
        (s_apply m c ⟨n + 1, l1⟩ kk _ (show 1024 + kk.val = 1024 * ((n + 1) % 4) + kk.val by omega)))
      (w_apply m c ⟨n + 1, l1⟩ kk q _ o (show 1024 + kk.val = 1024 * ((n + 1) % 4) + kk.val by omega) (show o.val = 1024 * ((n + 1) / 4 % 4) + q.val by omega))
  · refine Finset.sum_congr rfl fun kk _ => ?_
    have hkk := kk.isLt
    exact congrArg₂ (· * ·)
      (congrArg₂ (· * ·)
        (x_apply m c ⟨n + 2, l2⟩ p kk r _ (show r.val = 1024 * ((n + 2) / 16) + p.val by omega) (show 2048 + kk.val = 1024 * ((n + 2) % 4) + kk.val by omega))
        (s_apply m c ⟨n + 2, l2⟩ kk _ (show 2048 + kk.val = 1024 * ((n + 2) % 4) + kk.val by omega)))
      (w_apply m c ⟨n + 2, l2⟩ kk q _ o (show 2048 + kk.val = 1024 * ((n + 2) % 4) + kk.val by omega) (show o.val = 1024 * ((n + 2) / 4 % 4) + q.val by omega))
  · refine Finset.sum_congr rfl fun kk _ => ?_
    have hkk := kk.isLt
    exact congrArg₂ (· * ·)
      (congrArg₂ (· * ·)
        (x_apply m c ⟨n + 3, ht⟩ p kk r _ (show r.val = 1024 * ((n + 3) / 16) + p.val by omega) (show 3072 + kk.val = 1024 * ((n + 3) % 4) + kk.val by omega))
        (s_apply m c ⟨n + 3, ht⟩ kk _ (show 3072 + kk.val = 1024 * ((n + 3) % 4) + kk.val by omega)))
      (w_apply m c ⟨n + 3, ht⟩ kk q _ o (show 3072 + kk.val = 1024 * ((n + 3) % 4) + kk.val by omega) (show o.val = 1024 * ((n + 3) / 4 % 4) + q.val by omega))

end Cert.KernelIdeal.Result

end
-- ==== Proof.KernelValue.lean ====
/-
  What the kernel's run leaves in its result.

  `G` is the matrix `[8192, 4096]` whose entry `(r, o)` is the contraction over all 4096 positions of the scaled
  activation row `r` against column `o` of the transposed weights, clamped between the two bounds. The output window
  is written back only at the last point of each run of four, `t % 4 = 3`, and what it writes there is block
  `(t / 16, t / 4 % 4)` of `G`. The 32 such points are `16 i + 4 j + 3` for `i < 8`, `j < 4`, so their blocks tile the
  matrix: entry `(r, o)` lies in the block of `i = r / 1024`, `j = o / 1024`. After the region @main reshapes the matrix to
  `[4, 2048, 4096]`.
-/
import proofs.«114170_j11579231830501_1_alg».proof.Proof.AccAt

set_option maxRecDepth 16384

noncomputable section

namespace Cert.KernelIdeal.Result

open Cert.KernelIdeal Cert.KernelIdeal.Gen Cert.KernelIdeal.Chain Cert.KernelIdeal.Blocks Cert.KernelIdeal.BodyValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The result matrix: the clamped contraction, entry by entry. -/
def G (c : Dev nD) : Vec Ideal S8192x4096 .f32 := fun j =>
  min (Ideal.ofBits .f32 0x42480000#32) (max (Ideal.ofBits .f32 0xC2480000#32) (∑ k : Fin 4096, term m c (j 0) (j 1) k))

/-- Entry `y` of the block written at a last point `t` is the entry of `G` at row `1024 (t / 16) + y₀`, column
    `1024 (t / 4 % 4) + y₁`. -/
theorem out_block_apply (c : Dev nD) (t : Fin cfg0.N) (h3 : t.val % 4 = 3) (y : S1024x1024.Idx) (j : S8192x4096.Idx)
    (h0 : (j 0).val = 1024 * (t.val / 16) + (y 0).val) (h1 : (j 1).val = 1024 * (t.val / 4 % 4) + (y 1).val) :
    k0_pay3 (F := Ideal) (acc m c t.val t.isLt) y = G m c j := by
  rw [clamp_apply, (congrArg (acc m c t.val t.isLt) (eq_ix2 y)).trans (acc_apply m c t h3 (y 0) (y 1) (j 0) (j 1) h0 h1)]
  rfl

/-- What a writing-back point writes back is its block of `G`. -/
theorem flushed_eq (c : Dev nD) (t : Fin cfg0.N) (hf : (cfg0.win 3).flush t = true) :
    (dats m 0 c).flushed 3 t = ((cfg0.win 3).blk t).view.read (Elt Ideal) (G m c) := by
  have h3 : t.val % 4 = 3 := (flush0_3 t).mp hf
  show (cfg0.win 3).cut (grid0.coords t) ((dats m 0 c).after 3 t) = _
  rw [after0_3, out_eq m c t h3]
  funext y
  show k0_pay3 (F := Ideal) (acc m c t.val t.isLt) y = G m c (((cfg0.win 3).blk t).view.emb y)
  refine out_block_apply m c t h3 y _ ?_ ?_
  · show win0_3.index t (0 : Fin 2) * 1024 + 1 * (y 0).val = 1024 * (t.val / 16) + (y 0).val
    rw [(idx_o t).1]; omega
  · show win0_3.index t (1 : Fin 2) * 1024 + 1 * (y 1).val = 1024 * (t.val / 4 % 4) + (y 1).val
    rw [(idx_o t).2]; omega

/-- An entry is in point `t`'s output block iff each coordinate is in the block's range. -/
theorem mem_blk (t : Fin cfg0.N) (i : S8192x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v31).slice (win0_3.rect t)).set ↔ _
  rw [View.set_slice_whole, Rect.mem_set_unit]
  exact Iff.rfl

/-- Every entry of the matrix is in the block of some writing-back point. -/
theorem cover (i : S8192x4096.Idx) :
    ∃ t : Fin cfg0.N, (cfg0.win 3).flush t = true ∧ i ∈ ((cfg0.win 3).blk t).view.set := by
  have hi0 : (i 0).val < 8192 := (i 0).isLt
  have hi1 : (i 1).val < 4096 := (i 1).isLt
  have hN : cfg0.N = 128 := N_0
  have hb : 16 * ((i 0).val / 1024) + 4 * ((i 1).val / 1024) + 3 < cfg0.N := by rw [hN]; omega
  have e0 : win0_3.index ⟨_, hb⟩ (0 : Fin 2) = (16 * ((i 0).val / 1024) + 4 * ((i 1).val / 1024) + 3) / 16 := (idx_o ⟨_, hb⟩).1
  have e1 : win0_3.index ⟨_, hb⟩ (1 : Fin 2) = (16 * ((i 0).val / 1024) + 4 * ((i 1).val / 1024) + 3) / 4 % 4 := (idx_o ⟨_, hb⟩).2
  refine ⟨⟨_, hb⟩, (flush0_3 ⟨_, hb⟩).mpr (show (16 * ((i 0).val / 1024) + 4 * ((i 1).val / 1024) + 3) % 4 = 3 by omega), ?_⟩
  rw [mem_blk]
  intro a
  match a with
  | ⟨0, _⟩ =>
    show win0_3.index ⟨_, hb⟩ (0 : Fin 2) * 1024 ≤ (i 0).val ∧ (i 0).val < win0_3.index ⟨_, hb⟩ (0 : Fin 2) * 1024 + 1024
    rw [e0]; omega
  | ⟨1, _⟩ =>
    show win0_3.index ⟨_, hb⟩ (1 : Fin 2) * 1024 ≤ (i 1).val ∧ (i 1).val < win0_3.index ⟨_, hb⟩ (1 : Fin 2) * 1024 + 1024
    rw [e1]; omega

/-- The result matrix after the region is `G`. -/
theorem final (c : Dev nD) : (dats m 0 c).arrAt 3 cfg0.N = G m c :=
  (dats m 0 c).arrAt_eq_of_cover 3 (G m c) (flushed_eq m c) cover

/-- The program's result: the matrix reshaped to the activations' shape. -/
theorem tail_eq (c : Dev nD) :
    Pipeline.afterTail₀ cfgs (dats m) 0 (V0 m) [hostOps1] c main_v32
      = shapeCast _ (G m c) shapeCasts_S8192x4096_S4x2048x4096 := by
  unfold Pipeline.afterTail₀
  show StableHlo.after hostOps1 _ (Proc.devRef .tc main_v32) = _
  after_results
  exact congrArg (fun a => shapeCast _ a shapeCasts_S8192x4096_S4x2048x4096)
    ((Pipeline.withArrays_arr spec0 launch0.win.arr_inj c _ _ 3).trans (final m c))

/-- The run, read: the result at the reshaped `G`, the four arguments unchanged. -/
theorem run : θ_run defs (onTc (τ := τ) (main (F := Ideal))) ⟨m, fun _ => 0, ρ⟩ fun r => ∀ c : Dev nD,
      r.2.mem ((c.tc : Thread nD τ).loc main_v32) = shapeCast _ (G m c) shapeCasts_S8192x4096_S4x2048x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v32 (Pipeline.mem_restRefs_of main_v32 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.HostSide.lean ====
/-
  The host operations before the kernel, read back.

  Before the region @main reshapes the activations `[4, 2048, 4096]` to a matrix `[8192, 4096]`, reshapes the scales
  `[4096]` to one row `[1, 4096]`, and builds the weights: each codebook widened to f32, the index columns
  normalised (a negative index has the codebook size added) and used to gather rows, the two gathered tensors added
  onto zero, the sum laid out as `[4096, 4096]`; that matrix is then transposed and narrowed to bf16. The
  construction of the weight matrix is kept as ONE definition `deq`: the reference builds the same matrix by the
  same operations, and the two are compared whole, never opened.
-/
import proofs.«114170_j11579231830501_1_alg».proof.Proof.Gen.KernelIdeal.Frame
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- The dequantised weight matrix `W[o, i]`, from the index tensor and the codebooks. -/
def deq (idx : Vec F S4096x512x2 .i32) (cb : Vec F S2x256x8 .bf16) : Vec F S4096x4096 .f32 :=
  (shapeCast _ (addf (addf (broadcastInDim S4096x512x8 ![] bcast_S_S4096x512x8 (constant (F := F) S_ .f32 0x00000000#32)) (Host.gather gather_S256x8_S4096x512x1_S4096x512x8_2_0_n_n_0_2_18 (shapeCast _ (extractStridedSlice S1x256x8 ![0, 0, 0] (extf .f32 cb bitsLt_bf16_f32) slices_S2x256x8_S1x256x8_0_0_0) shapeCasts_S1x256x8_S256x8) (broadcastInDim S4096x512x1 ![0, 1] bcast_S4096x512_S4096x512x1_0_1 (select (cmpi .slt (shapeCast _ (extractStridedSlice S4096x512x1 ![0, 0, 0] idx slices_S4096x512x2_S4096x512x1_0_0_0) shapeCasts_S4096x512x1_S4096x512) (broadcastInDim S4096x512 ![] bcast_S_S4096x512 (constantI S_ 32 0#32))) (addi (shapeCast _ (extractStridedSlice S4096x512x1 ![0, 0, 0] idx slices_S4096x512x2_S4096x512x1_0_0_0) shapeCasts_S4096x512x1_S4096x512) (broadcastInDim S4096x512 ![] bcast_S_S4096x512 (constantI S_ 32 256#32))) (shapeCast _ (extractStridedSlice S4096x512x1 ![0, 0, 0] idx slices_S4096x512x2_S4096x512x1_0_0_0) shapeCasts_S4096x512x1_S4096x512))))) (Host.gather gather_S256x8_S4096x512x1_S4096x512x8_2_0_n_n_0_2_18 (shapeCast _ (extractStridedSlice S1x256x8 ![1, 0, 0] (extf .f32 cb bitsLt_bf16_f32) slices_S2x256x8_S1x256x8_1_0_0) shapeCasts_S1x256x8_S256x8) (broadcastInDim S4096x512x1 ![0, 1] bcast_S4096x512_S4096x512x1_0_1 (select (cmpi .slt (shapeCast _ (extractStridedSlice S4096x512x1 ![0, 0, 1] idx slices_S4096x512x2_S4096x512x1_0_0_1) shapeCasts_S4096x512x1_S4096x512) (broadcastInDim S4096x512 ![] bcast_S_S4096x512 (constantI S_ 32 0#32))) (addi (shapeCast _ (extractStridedSlice S4096x512x1 ![0, 0, 1] idx slices_S4096x512x2_S4096x512x1_0_0_1) shapeCasts_S4096x512x1_S4096x512) (broadcastInDim S4096x512 ![] bcast_S_S4096x512 (constantI S_ 32 256#32))) (shapeCast _ (extractStridedSlice S4096x512x1 ![0, 0, 1] idx slices_S4096x512x2_S4096x512x1_0_0_1) shapeCasts_S4096x512x1_S4096x512))))) shapeCasts_S4096x512x8_S4096x4096)

/-- The activations as the region finds them: the argument reshaped to a matrix. -/
theorem V_x (c : Dev nD) :
    (V m c main_v0 : Vec F S8192x4096 .f32)
      = shapeCast _ (m ((c : Thread nD τ).loc main_arg0)) shapeCasts_S4x2048x4096_S8192x4096 := by
  show StableHlo.after hostOps0 (fun b => m (c, b)) (Proc.devRef .tc main_v0) = _
  after_results
  rfl

/-- The scales as the region finds them: the argument reshaped to one row. -/
theorem V_s (c : Dev nD) :
    (V m c main_v30 : Vec F S1x4096 .f32)
      = shapeCast _ (m ((c : Thread nD τ).loc main_arg3)) shapeCasts_S4096_S1x4096 := by
  show StableHlo.after hostOps0 (fun b => m (c, b)) (Proc.devRef .tc main_v30) = _
  after_results
  rfl

-- the weights depend on the arguments through a chain of thirty host operations
set_option maxHeartbeats 2000000 in
/-- The weights as the region finds them: `deq` transposed, narrowed to bf16. -/
theorem V_w (c : Dev nD) :
    (V m c main_v29 : Vec F S4096x4096 .bf16)
      = truncf .bf16 (transpose S4096x4096 [1, 0] (deq (m ((c : Thread nD τ).loc main_arg1)) (m ((c : Thread nD τ).loc main_arg2))) transposes_S4096x4096_S4096x4096_1_0) bitsLt_bf16_f32 := by
  show StableHlo.after hostOps0 (fun b => m (c, b)) (Proc.devRef .tc main_v29) = _
  after_results_simp <;> rfl

end Cert.KernelIdeal.HostSide

end
-- ==== Proof.RefAt.lean ====
/-
  The reference's result, read at one entry.

  The reference scales the activations by the per-column scale (broadcast along the two leading axes), lays them
  out as a matrix `[8192, 4096]`, contracts its axis 1 against axis 1 of the weight matrix `W[o, i]`, lays the
  product out as `[4, 2048, 4096]` and clamps it: the lower bound first (`max`), then the upper (`min`). At entry `i`,
  with `(r, o)` the matrix position of `i`, that is `min hi (max lo (∑ k, (x (r, k) · s k) · W (o, k)))`. The weight
  matrix is left as the stage that builds it: it is compared whole with the kernel's.
-/
import proofs.«114170_j11579231830501_1_alg».proof.Proof.Gen.ReferenceIdeal.Read

noncomputable section

namespace Cert.ReferenceIdeal.RefValue

open Cert.ReferenceIdeal Cert.ReferenceIdeal.Gen Cert.ReferenceIdeal.Read Idealize.ShloMosaic Idealize.ShloMosaic.ValueIdx

/-- The reference's result at entry `i`. -/
theorem result_apply (x0 : (⟨S4x2048x4096, .f32⟩ : BufTy).Contents (Elt Ideal)) (x1 : (⟨S4096x512x2, .i32⟩ : BufTy).Contents (Elt Ideal))
    (x2 : (⟨S2x256x8, .bf16⟩ : BufTy).Contents (Elt Ideal)) (x3 : (⟨S4096, .f32⟩ : BufTy).Contents (Elt Ideal)) (i : S4x2048x4096.Idx) :
    val_main_v33 (F := Ideal) x0 x1 x2 x3 i
      = min (Ideal.ofBits .f32 0x42480000#32) (max (Ideal.ofBits .f32 0xC2480000#32)
          (∑ k : Fin 4096,
            (x0 (idx_main_v3 (lidx_main_v31 (idx_main_v32 i) k))
              * x3 (idx_main_v0 (idx_main_v1 (idx_main_v3 (lidx_main_v31 (idx_main_v32 i) k)))))
            * val_main_v30 (F := Ideal) x1 x2 (ridx_main_v31 (idx_main_v32 i) k))) := by
  rw [val_main_v33_apply, val_main_call0_v4_apply, val_main_call0_v3_apply, val_main_cst_4_apply,
    val_main_call0_v2_apply, val_main_call0_v1_apply, val_main_call0_v0_apply, val_main_cst_3_apply,
    val_main_v32_apply, val_main_v31_apply]
  simp only [val_main_v3_apply, val_main_v2_apply, val_main_v1_apply, val_main_v0_apply]
  rfl

end Cert.ReferenceIdeal.RefValue

end
-- ==== Proof.Bridge.lean ====
/-
  The two results are one function of the arguments.

  Kernel: entry `i` of the result is entry `(r, o)` of the clamped matrix, `(r, o)` the matrix position of `i`, whose
  contraction term at `k` is `(X (r, k) · S (0, k)) · Wt (k, o)` with `X` the activations reshaped, `S` the scales as
  one row, `Wt` the weight matrix transposed and narrowed to bf16 (the identity on the extended reals).
  Reference: the same clamp of `∑ k, (x (r, k) · s k) · W (o, k)`.
  Term by term: `X (r, k)` is the activation at the same row-major position, `S (0, k)` is `s k`, `Wt (k, o)` is `W (o, k)`,
  and the two weight matrices are built by the same operations from the same index tensor and codebooks.
-/
import proofs.«114170_j11579231830501_1_alg».proof.Proof.KernelValue
import proofs.«114170_j11579231830501_1_alg».proof.Proof.HostSide
import proofs.«114170_j11579231830501_1_alg».proof.Proof.RefAt
import Idealize.ShloMosaic.Lib.ValueLayout

set_option maxRecDepth 16384

noncomputable section

namespace Cert.Bridge

open Idealize.ShloMosaic Idealize.ShloMosaic.TcCoe Idealize.ShloMosaic.ValueIdx Idealize.SL.Sem

/-- The reference's weight stage is the kernel's `deq`: the same operations in the same order. -/
theorem deq_eq (x1 : Vec Ideal Cert.KernelIdeal.S4096x512x2 .i32) (x2 : Vec Ideal Cert.KernelIdeal.S2x256x8 .bf16) :
    Cert.ReferenceIdeal.Read.val_main_v30 (F := Ideal) x1 x2 = Cert.KernelIdeal.HostSide.deq (F := Ideal) x1 x2 := rfl

/-- The reference's left index of the contraction at matrix position `(r, o)` and `k` is `(r, k)`. -/
theorem lidx_eq (r : Fin 8192) (o k : Fin 4096) :
    Cert.ReferenceIdeal.Read.lidx_main_v31 (ix2 r o) k = ix2 r k :=
  funext fun a => match a with | ⟨0, _⟩ => rfl | ⟨1, _⟩ => rfl

/-- and its right index is `(o, k)`. -/
theorem ridx_eq (r : Fin 8192) (o k : Fin 4096) :
    Cert.ReferenceIdeal.Read.ridx_main_v31 (ix2 r o) k = ix2 o k :=
  funext fun a => match a with | ⟨0, _⟩ => rfl | ⟨1, _⟩ => rfl

/-- The scale the reference multiplies entry `(r, k)` of the activation matrix by is entry `k` of the scale vector. -/
theorem sidx_eq (r : Fin 8192) (k : Fin 4096) :
    ix1 k = Cert.ReferenceIdeal.Read.idx_main_v0 (Cert.ReferenceIdeal.Read.idx_main_v1 (Cert.ReferenceIdeal.Read.idx_main_v3 (ix2 r k))) :=
  funext fun a => match a with
    | ⟨0, _⟩ => Fin.ext (show k.val = (r.val * 4096 + k.val) % 4096 by have := k.isLt; omega)

/-- One term of the two contractions, at matrix position `(r, o)` and contraction position `k`: for arrays `X`, `S`,
    `Wt` that are the activations reshaped, the scales as one row, and the weights transposed and narrowed. -/
theorem term_eq (X : Vec Ideal Cert.KernelIdeal.S8192x4096 .f32) (S : Vec Ideal Cert.KernelIdeal.S1x4096 .f32) (Wt : Vec Ideal Cert.KernelIdeal.S4096x4096 .bf16)
    (x0 : Vec Ideal Cert.KernelIdeal.S4x2048x4096 .f32) (x1 : Vec Ideal Cert.KernelIdeal.S4096x512x2 .i32) (x2 : Vec Ideal Cert.KernelIdeal.S2x256x8 .bf16)
    (x3 : Vec Ideal Cert.KernelIdeal.S4096 .f32)
    (hX : X = shapeCast _ x0 Cert.KernelIdeal.Gen.shapeCasts_S4x2048x4096_S8192x4096)
    (hS : S = shapeCast _ x3 Cert.KernelIdeal.Gen.shapeCasts_S4096_S1x4096)
    (hW : Wt = truncf .bf16 (transpose Cert.KernelIdeal.S4096x4096 [1, 0] (Cert.KernelIdeal.HostSide.deq x1 x2) Cert.KernelIdeal.Gen.transposes_S4096x4096_S4096x4096_1_0) Cert.KernelIdeal.Gen.bitsLt_bf16_f32)
    (r : Fin 8192) (o k : Fin 4096) :
    (X (ix2 r k) * S (ix2 (0 : Fin 1) k)) * Wt (ix2 k o)
      = (x0 (Cert.ReferenceIdeal.Read.idx_main_v3 (Cert.ReferenceIdeal.Read.lidx_main_v31 (ix2 r o) k))
          * x3 (Cert.ReferenceIdeal.Read.idx_main_v0 (Cert.ReferenceIdeal.Read.idx_main_v1 (Cert.ReferenceIdeal.Read.idx_main_v3 (Cert.ReferenceIdeal.Read.lidx_main_v31 (ix2 r o) k)))))
        * Cert.ReferenceIdeal.Read.val_main_v30 (F := Ideal) x1 x2 (Cert.ReferenceIdeal.Read.ridx_main_v31 (ix2 r o) k) := by
  subst hX hS hW
  rw [lidx_eq, ridx_eq, ← sidx_eq, deq_eq]
  refine congrArg₂ (· * ·) (congrArg₂ (· * ·) ?_ ?_) ?_
  · -- the activation: the same row-major position in the reshaped array
    refine shapeCast_apply (s := Cert.KernelIdeal.S4x2048x4096) (t := Cert.KernelIdeal.S8192x4096) _ _ _ _ ?_
    rewrite [Shape.rowMajor_val_three, Shape.rowMajor_val_two]
    have h0 : r.val < 8192 := r.isLt
    have h1 : k.val < 4096 := k.isLt
    show ((r.val * 4096 + k.val) / 8388608 * 2048 + (r.val * 4096 + k.val) / 4096 % 2048) * 4096 + (r.val * 4096 + k.val) % 4096 = r.val * 4096 + k.val
    omega
  · -- the scale: the one row's entry `k`
    refine shapeCast_apply (s := Cert.KernelIdeal.S4096) (t := Cert.KernelIdeal.S1x4096) _ _ _ _ ?_
    rewrite [Shape.rowMajor_val_one, Shape.rowMajor_val_two]
    show k.val = 0 * 4096 + k.val
    omega
  · -- the weight: narrowing is the identity, the transpose swaps the coordinates
    show transpose Cert.KernelIdeal.S4096x4096 [1, 0] (Cert.KernelIdeal.HostSide.deq x1 x2) Cert.KernelIdeal.Gen.transposes_S4096x4096_S4096x4096_1_0 (ix2 k o) = _
    exact transpose_ix2_apply (a := 4096) (b := 4096) _ _ k o

variable (m : (ℓ : Loc Cert.KernelIdeal.nD Cert.KernelIdeal.τ Cert.KernelIdeal.sig) → Buf (Elt Ideal) ℓ)

/-- The kernel's matrix reshaped is the reference's result stage of the same four arguments. -/
theorem result_eq (c : Dev Cert.KernelIdeal.nD) :
    shapeCast _ (Cert.KernelIdeal.Result.G m c) Cert.KernelIdeal.Gen.shapeCasts_S8192x4096_S4x2048x4096
      = Cert.ReferenceIdeal.Read.val_main_v33 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  funext i
  rw [Cert.ReferenceIdeal.RefValue.result_apply]
  refine (shapeCast_apply (s := Cert.KernelIdeal.S8192x4096) (t := Cert.KernelIdeal.S4x2048x4096) (Cert.KernelIdeal.Result.G m c) _ i (Cert.ReferenceIdeal.Read.idx_main_v32 i) ?_).trans ?_
  · rewrite [Shape.rowMajor_val_two, Shape.rowMajor_val_three]
    have h0 : (i 0).val < 4 := (i 0).isLt
    have h1 : (i 1).val < 2048 := (i 1).isLt
    have h2 : (i 2).val < 4096 := (i 2).isLt
    show (((i 0).val * 2048 + (i 1).val) * 4096 + (i 2).val) / 4096 * 4096 + (((i 0).val * 2048 + (i 1).val) * 4096 + (i 2).val) % 4096 = ((i 0).val * 2048 + (i 1).val) * 4096 + (i 2).val
    omega
  · generalize Cert.ReferenceIdeal.Read.idx_main_v32 i = j
    obtain ⟨r, o, rfl⟩ : ∃ (r : Fin 8192) (o : Fin 4096), j = ix2 r o := ⟨j 0, j 1, eq_ix2 j⟩
    show min _ (max _ (∑ k : Fin 4096, Cert.KernelIdeal.Result.term m c r o k)) = _
    exact congrArg (min _) (congrArg (max _) (Finset.sum_congr rfl fun k _ =>
      term_eq (Cert.KernelIdeal.Result.Xa m c) (Cert.KernelIdeal.Result.Sa m c) (Cert.KernelIdeal.Result.Wa m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
        (Cert.KernelIdeal.HostSide.V_x m c) (Cert.KernelIdeal.HostSide.V_s m c) (Cert.KernelIdeal.HostSide.V_w m c) r o k))

end Cert.Bridge

end
-- ==== Proof.lean ====
/-
  Additive-quantised linear layer: a tiled kernel against its one-contraction reference, over the extended reals.

  Both programs compute, for activations `x : [4, 2048, 4096]`, per-column scales `s : [4096]`, an index tensor and two
  codebooks,
      out[t, o] = clamp (∑ i, (x[t, i] · s[i]) · W[o, i]),   clamp v = min 50 (max (-50) v),
  where `W[o, i]` is the sum over the two codebooks of the codebook row the index tensor selects for `(o, i / 8)`, at
  column `i % 8`, and `t` runs over the 8192 rows of `x` taken as a matrix.

  The reference scales `x`, contracts the 4096-long axis in one sum and clamps. The kernel builds `W` by the same
  host operations, transposes it, and walks an `8 × 4 × 4` grid of 1024-wide blocks: for each output block it zeroes an
  accumulator, adds the product of the scaled activation block with the weight block for each of the four blocks of
  the contracted axis, and stores the clamped accumulator after the fourth. Changing float format is the identity on
  the extended reals, so the only difference is that the kernel adds four partial sums of 1024 terms, in order,
  starting from zero, where the reference adds 4096 terms at once; in a commutative additive monoid these agree, and no
  finiteness of the inputs is needed.

  The three frames are the generated ones (the reference's is its generated run with the result dropped); the ideal
  pass rewrote nothing, so the idealization claim is trivial; the value claim joins the kernel's run, read as the
  clamped contraction, with the reference's run, read entry by entry.
-/
import proofs.«114170_j11579231830501_1_alg».proof.Defs
import proofs.«114170_j11579231830501_1_alg».proof.Proof.Gen.Kernel
import proofs.«114170_j11579231830501_1_alg».proof.Proof.Gen.Kernel.Frame
import proofs.«114170_j11579231830501_1_alg».proof.Proof.Gen.KernelIdeal
import proofs.«114170_j11579231830501_1_alg».proof.Proof.Gen.KernelIdeal.Frame
import proofs.«114170_j11579231830501_1_alg».proof.Proof.Gen.ReferenceIdeal
import proofs.«114170_j11579231830501_1_alg».proof.Proof.Gen.ReferenceIdeal.Run
import proofs.«114170_j11579231830501_1_alg».proof.Proof.Gen.ReferenceIdeal.Read
import proofs.«114170_j11579231830501_1_alg».proof.Proof.Gen.Pre_finite_inputs
import proofs.«114170_j11579231830501_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the four arguments both programs end with the clamped contraction, reshaped to the
    activations' shape: the kernel's run read as that matrix, the reference's run read entry by entry as the same. -/
theorem algebraic : Cert.algebraic_KernelIdeal_ReferenceIdeal := by
  intro m ρ m' ρ' _ hagree
  refine ⟨fun c => shapeCast _ (Cert.KernelIdeal.Result.G m c) Cert.KernelIdeal.Gen.shapeCasts_S8192x4096_S4x2048x4096,
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2]
  exact (Cert.Bridge.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
